-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x904 : Shape := ⟨2, ![131072, 904]⟩
abbrev S400x904 : Shape := ⟨2, ![400, 904]⟩
abbrev S400x100 : Shape := ⟨2, ![400, 100]⟩
abbrev S400 : Shape := ⟨1, ![400]⟩
abbrev S_ : Shape := ⟨0, ![]⟩

class Facts : Prop where
  bcast_S_S131072x904 : S_.BroadcastsInDim S131072x904 (![] : Fin 0 → Fin S131072x904.rank)
  reducesTo_S131072x904_S_d0_1 : S131072x904.ReducesTo [0, 1] S_
  h_S_ : 0 < S_.numel
  bcast_S_S400x904 : S_.BroadcastsInDim S400x904 (![] : Fin 0 → Fin S400x904.rank)
  reducesTo_S400x904_S_d0_1 : S400x904.ReducesTo [0, 1] S_
  bcast_S_S400x100 : S_.BroadcastsInDim S400x100 (![] : Fin 0 → Fin S400x100.rank)
  reducesTo_S400x100_S_d0_1 : S400x100.ReducesTo [0, 1] S_
  bcast_S_S400 : S_.BroadcastsInDim S400 (![] : Fin 0 → Fin S400.rank)
  reducesTo_S400_S_d0 : S400.ReducesTo [0] S_

variable [Facts]

def fn_part2 {F : FTy → Type} [FloatOps F] (main_arg7 : FVec F S400 .f32) (main_arg8 : FVec F S400 .f32) (main_v33 : IVec S_ 1) : IVec S_ 1 :=
  let main_v34 : FVec F S400 .f32 := Host.absf main_arg7
  let main_cst_12 : FVec F S_ .f32 := constant S_ .f32 0x7F800000#32
  let main_v35 : FVec F S400 .f32 := broadcastInDim S400 ![] bcast_S_S400 main_cst_12
  let main_v36 : IVec S400 1 := cmpf .olt main_v34 main_v35
  let main_c_13 : IVec S_ 1 := constantI S_ 1 1#1
  let main_v37 : IVec S_ 1 := (fun x v => Host.reduce IntOp.andi x v reducesTo_S400_S_d0 h_S_) main_v36 main_c_13
  let main_v38 : IVec S_ 1 := andi main_v33 main_v37
  let main_v39 : FVec F S400 .f32 := Host.absf main_arg8
  let main_cst_14 : FVec F S_ .f32 := constant S_ .f32 0x7F800000#32
  let main_v40 : FVec F S400 .f32 := broadcastInDim S400 ![] bcast_S_S400 main_cst_14
  let main_v41 : IVec S400 1 := cmpf .olt main_v39 main_v40
  let main_c_15 : IVec S_ 1 := constantI S_ 1 1#1
  let main_v42 : IVec S_ 1 := (fun x v => Host.reduce IntOp.andi x v reducesTo_S400_S_d0 h_S_) main_v41 main_c_15
  let main_v43 : IVec S_ 1 := andi main_v38 main_v42
  main_v43

def fn_part1 {F : FTy → Type} [FloatOps F] (main_arg4 : FVec F S400 .f32) (main_arg5 : FVec F S400x904 .f32) (main_arg6 : FVec F S400x100 .f32) (main_arg7 : FVec F S400 .f32) (main_arg8 : FVec F S400 .f32) (main_v13 : IVec S_ 1) (main_v16 : IVec S400 1) : IVec S_ 1 :=
  let main_c_5 : IVec S_ 1 := constantI S_ 1 1#1
  let main_v17 : IVec S_ 1 := (fun x v => Host.reduce IntOp.andi x v reducesTo_S400_S_d0 h_S_) main_v16 main_c_5
  let main_v18 : IVec S_ 1 := andi main_v13 main_v17
  let main_v19 : FVec F S400 .f32 := Host.absf main_arg4
  let main_cst_6 : FVec F S_ .f32 := constant S_ .f32 0x7F800000#32
  let main_v20 : FVec F S400 .f32 := broadcastInDim S400 ![] bcast_S_S400 main_cst_6
  let main_v21 : IVec S400 1 := cmpf .olt main_v19 main_v20
  let main_c_7 : IVec S_ 1 := constantI S_ 1 1#1
  let main_v22 : IVec S_ 1 := (fun x v => Host.reduce IntOp.andi x v reducesTo_S400_S_d0 h_S_) main_v21 main_c_7
  let main_v23 : IVec S_ 1 := andi main_v18 main_v22
  let main_v24 : FVec F S400x904 .f32 := Host.absf main_arg5
  let main_cst_8 : FVec F S_ .f32 := constant S_ .f32 0x7F800000#32
  let main_v25 : FVec F S400x904 .f32 := broadcastInDim S400x904 ![] bcast_S_S400x904 main_cst_8
  let main_v26 : IVec S400x904 1 := cmpf .olt main_v24 main_v25
  let main_c_9 : IVec S_ 1 := constantI S_ 1 1#1
  let main_v27 : IVec S_ 1 := (fun x v => Host.reduce IntOp.andi x v reducesTo_S400x904_S_d0_1 h_S_) main_v26 main_c_9
  let main_v28 : IVec S_ 1 := andi main_v23 main_v27
  let main_v29 : FVec F S400x100 .f32 := Host.absf main_arg6
  let main_cst_10 : FVec F S_ .f32 := constant S_ .f32 0x7F800000#32
  let main_v30 : FVec F S400x100 .f32 := broadcastInDim S400x100 ![] bcast_S_S400x100 main_cst_10
  let main_v31 : IVec S400x100 1 := cmpf .olt main_v29 main_v30
  let main_c_11 : IVec S_ 1 := constantI S_ 1 1#1
  let main_v32 : IVec S_ 1 := (fun x v => Host.reduce IntOp.andi x v reducesTo_S400x100_S_d0_1 h_S_) main_v31 main_c_11
  let main_v33 : IVec S_ 1 := andi main_v28 main_v32
  fn_part2 (F := F) main_arg7 main_arg8 main_v33

def fn {F : FTy → Type} [FloatOps F] (main_arg0 : FVec F S131072x904 .f32) (main_arg1 : FVec F S400x904 .f32) (main_arg2 : FVec F S400x100 .f32) (main_arg3 : FVec F S400 .f32) (main_arg4 : FVec F S400 .f32) (main_arg5 : FVec F S400x904 .f32) (main_arg6 : FVec F S400x100 .f32) (main_arg7 : FVec F S400 .f32) (main_arg8 : FVec F S400 .f32) : IVec S_ 1 :=
  let main_v0 : FVec F S131072x904 .f32 := Host.absf main_arg0
  let main_cst : FVec F S_ .f32 := constant S_ .f32 0x7F800000#32
  let main_v1 : FVec F S131072x904 .f32 := broadcastInDim S131072x904 ![] bcast_S_S131072x904 main_cst
  let main_v2 : IVec S131072x904 1 := cmpf .olt main_v0 main_v1
  let main_c : IVec S_ 1 := constantI S_ 1 1#1
  let main_v3 : IVec S_ 1 := (fun x v => Host.reduce IntOp.andi x v reducesTo_S131072x904_S_d0_1 h_S_) main_v2 main_c
  let main_v4 : FVec F S400x904 .f32 := Host.absf main_arg1
  let main_cst_0 : FVec F S_ .f32 := constant S_ .f32 0x7F800000#32
  let main_v5 : FVec F S400x904 .f32 := broadcastInDim S400x904 ![] bcast_S_S400x904 main_cst_0
  let main_v6 : IVec S400x904 1 := cmpf .olt main_v4 main_v5
  let main_c_1 : IVec S_ 1 := constantI S_ 1 1#1
  let main_v7 : IVec S_ 1 := (fun x v => Host.reduce IntOp.andi x v reducesTo_S400x904_S_d0_1 h_S_) main_v6 main_c_1
  let main_v8 : IVec S_ 1 := andi main_v3 main_v7
  let main_v9 : FVec F S400x100 .f32 := Host.absf main_arg2
  let main_cst_2 : FVec F S_ .f32 := constant S_ .f32 0x7F800000#32
  let main_v10 : FVec F S400x100 .f32 := broadcastInDim S400x100 ![] bcast_S_S400x100 main_cst_2
  let main_v11 : IVec S400x100 1 := cmpf .olt main_v9 main_v10
  let main_c_3 : IVec S_ 1 := constantI S_ 1 1#1
  let main_v12 : IVec S_ 1 := (fun x v => Host.reduce IntOp.andi x v reducesTo_S400x100_S_d0_1 h_S_) main_v11 main_c_3
  let main_v13 : IVec S_ 1 := andi main_v8 main_v12
  let main_v14 : FVec F S400 .f32 := Host.absf main_arg3
  let main_cst_4 : FVec F S_ .f32 := constant S_ .f32 0x7F800000#32
  let main_v15 : FVec F S400 .f32 := broadcastInDim S400 ![] bcast_S_S400 main_cst_4
  let main_v16 : IVec S400 1 := cmpf .olt main_v14 main_v15
  fn_part1 (F := F) main_arg4 main_arg5 main_arg6 main_arg7 main_arg8 main_v13 main_v16
-- ==== Kernel.lean ====
abbrev S131072x904 : Shape := ⟨2, ![131072, 904]⟩
abbrev S400x904 : Shape := ⟨2, ![400, 904]⟩
abbrev S400x100 : Shape := ⟨2, ![400, 100]⟩
abbrev S400 : Shape := ⟨1, ![400]⟩
abbrev S1x400 : Shape := ⟨2, ![1, 400]⟩
abbrev S904x400 : Shape := ⟨2, ![904, 400]⟩
abbrev S131072x200 : Shape := ⟨2, ![131072, 200]⟩
abbrev S2048x904 : Shape := ⟨2, ![2048, 904]⟩
abbrev S2048x200 : Shape := ⟨2, ![2048, 200]⟩
abbrev S2048x400 : Shape := ⟨2, ![2048, 400]⟩
abbrev S2048x100 : Shape := ⟨2, ![2048, 100]⟩

abbrev nBuf : Space → Nat
  | .hbm => 18
  | .vmem => 8
  | .smem => 0
  | _ => 0

abbrev bufTy : (tb : Table) → Fin (tcTables nBuf tb) → BufTy
  | .hbm, ⟨0, _⟩ => ⟨S131072x904, .f32⟩
  | .hbm, ⟨1, _⟩ => ⟨S400x904, .f32⟩
  | .hbm, ⟨2, _⟩ => ⟨S400x100, .f32⟩
  | .hbm, ⟨3, _⟩ => ⟨S400, .f32⟩
  | .hbm, ⟨4, _⟩ => ⟨S400, .f32⟩
  | .hbm, ⟨5, _⟩ => ⟨S400x904, .f32⟩
  | .hbm, ⟨6, _⟩ => ⟨S400x100, .f32⟩
  | .hbm, ⟨7, _⟩ => ⟨S400, .f32⟩
  | .hbm, ⟨8, _⟩ => ⟨S400, .f32⟩
  | .hbm, ⟨9, _⟩ => ⟨S400, .f32⟩
  | .hbm, ⟨10, _⟩ => ⟨S1x400, .f32⟩
  | .hbm, ⟨11, _⟩ => ⟨S400, .f32⟩
  | .hbm, ⟨12, _⟩ => ⟨S1x400, .f32⟩
  | .hbm, ⟨13, _⟩ => ⟨S904x400, .f32⟩
  | .hbm, ⟨14, _⟩ => ⟨S904x400, .bf16⟩
  | .hbm, ⟨15, _⟩ => ⟨S904x400, .f32⟩
  | .hbm, ⟨16, _⟩ => ⟨S904x400, .bf16⟩
  | .hbm, ⟨17, _⟩ => ⟨S131072x200, .f32⟩
  | .local _ .vmem, ⟨0, _⟩ => ⟨S2048x904, .f32⟩
  | .local _ .vmem, ⟨1, _⟩ => ⟨S2048x904, .f32⟩
  | .local _ .vmem, ⟨2, _⟩ => ⟨S904x400, .bf16⟩
  | .local _ .vmem, ⟨3, _⟩ => ⟨S904x400, .bf16⟩
  | .local _ .vmem, ⟨4, _⟩ => ⟨S1x400, .f32⟩
  | .local _ .vmem, ⟨5, _⟩ => ⟨S1x400, .f32⟩
  | .local _ .vmem, ⟨6, _⟩ => ⟨S2048x200, .f32⟩
  | .local _ .vmem, ⟨7, _⟩ => ⟨S2048x200, .f32⟩
  | _, _ => ⟨S131072x904, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x904 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S904x400 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S904x400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x400 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S400_S1x400 : S400.ShapeCasts S1x400
  transposes_S400x904_S904x400_1_0 : S400x904.Transposes [1, 0] S904x400
  bitsLt_bf16_f32 : FTy.bits .bf16 < FTy.bits .f32
  inb_S2048x904_S2048x904_0_0 : ∀ a, (![0, 0] : Fin 2 → Nat) a + S2048x904.size a ≤ S2048x904.size a
  h_S2048x904 : 0 < S2048x904.numel
  inb_S904x400_S904x400_0_0 : ∀ a, (![0, 0] : Fin 2 → Nat) a + S904x400.size a ≤ S904x400.size a
  h_S904x400 : 0 < S904x400.numel
  shapeCasts_S904x400_S904x400 : S904x400.ShapeCasts S904x400
  inb_S1x400_S1x400_0_0 : ∀ a, (![0, 0] : Fin 2 → Nat) a + S1x400.size a ≤ S1x400.size a
  h_S1x400 : 0 < S1x400.numel
  shapeCasts_S1x400_S1x400 : S1x400.ShapeCasts S1x400
  broadcasts_S1x400_S2048x400 : S1x400.Broadcasts S2048x400
  slices_S2048x400_o0_0_S2048x100 : S2048x400.Slices ![0, 0] S2048x100
  slices_S2048x400_o0_200_S2048x100 : S2048x400.Slices ![0, 200] S2048x100
  slices_S2048x400_o0_300_S2048x100 : S2048x400.Slices ![0, 300] S2048x100
  concatenates_S2048x100_S2048x100_S2048x200_d1 : Shape.Concatenates [S2048x100, S2048x100] S2048x200 1
  inb_S2048x200_S2048x200_0_0 : ∀ a, (![0, 0] : Fin 2 → Nat) a + S2048x200.size a ≤ S2048x200.size a
  h_S2048x200 : 0 < S2048x200.numel
  dot_S2048x904_S904x400_S2048x400_1_0_0_1_n_n_wf : DotDims.WF S2048x904 S904x400 S2048x400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x904.size a ≤ S131072x904.size a
  hwx0_0 : ∀ i : grid0.Coords, EltTy.bits .f32 = 32 ∨ (Rect.block (s := S131072x904) S2048x904.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S904x400.size a ≤ S904x400.size a
  hwx0_1 : ∀ i : grid0.Coords, EltTy.bits .bf16 = 32 ∨ (Rect.block (s := S904x400) S904x400.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S904x400.size a ≤ S904x400.size a
  hwx0_2 : ∀ i : grid0.Coords, EltTy.bits .bf16 = 32 ∨ (Rect.block (s := S904x400) S904x400.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x400.size a ≤ S1x400.size a
  hwx0_3 : ∀ i : grid0.Coords, EltTy.bits .f32 = 32 ∨ (Rect.block (s := S1x400) S1x400.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x400.size a ≤ S1x400.size a
  hwx0_4 : ∀ i : grid0.Coords, EltTy.bits .f32 = 32 ∨ (Rect.block (s := S1x400) S1x400.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x200.size a ≤ S131072x200.size a
  hwx0_5 : ∀ i : grid0.Coords, EltTy.bits .f32 = 32 ∨ (Rect.block (s := S131072x200) S2048x200.size (cc0_transform_5 i) (hinb0_5 i)).WholeWords (EltTy.packing .f32)

variable [Facts₀]

def dot_S2048x904_S904x400_S2048x400_1_0_0_1_n_n : DotDims S2048x904 S904x400 S2048x400 where
  lhsContracting := [1]
  rhsContracting := [0]
  lhsNonContracting := [0]
  rhsNonContracting := [1]
  lhsBatch := []
  rhsBatch := []
  wf := dot_S2048x904_S904x400_S2048x400_1_0_0_1_n_n_wf

abbrev win0_0 : Pipeline.Window sig grid0 :=
  Pipeline.Window.ofSpec (Memref.whole main_arg0) S2048x904.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S904x400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S904x400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x400.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2048x200.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x904 : Shape := ⟨2, ![131072, 904]⟩
abbrev S400x904 : Shape := ⟨2, ![400, 904]⟩
abbrev S400x100 : Shape := ⟨2, ![400, 100]⟩
abbrev S400 : Shape := ⟨1, ![400]⟩
abbrev S904x400 : Shape := ⟨2, ![904, 400]⟩
abbrev S131072x400 : Shape := ⟨2, ![131072, 400]⟩
abbrev S1x400 : Shape := ⟨2, ![1, 400]⟩
abbrev S131072x100 : Shape := ⟨2, ![131072, 100]⟩
abbrev S_ : Shape := ⟨0, ![]⟩
abbrev S131072x200 : Shape := ⟨2, ![131072, 200]⟩

abbrev nBuf : Space → Nat
  | .hbm => 74
  | .vmem => 0
  | .smem => 0
  | _ => 0

abbrev bufTy : (tb : Table) → Fin (tcTables nBuf tb) → BufTy
  | .hbm, ⟨0, _⟩ => ⟨S131072x904, .f32⟩
  | .hbm, ⟨1, _⟩ => ⟨S400x904, .f32⟩
  | .hbm, ⟨2, _⟩ => ⟨S400x100, .f32⟩
  | .hbm, ⟨3, _⟩ => ⟨S400, .f32⟩
  | .hbm, ⟨4, _⟩ => ⟨S400, .f32⟩
  | .hbm, ⟨5, _⟩ => ⟨S400x904, .f32⟩
  | .hbm, ⟨6, _⟩ => ⟨S400x100, .f32⟩
  | .hbm, ⟨7, _⟩ => ⟨S400, .f32⟩
  | .hbm, ⟨8, _⟩ => ⟨S400, .f32⟩
  | .hbm, ⟨9, _⟩ => ⟨S904x400, .f32⟩
  | .hbm, ⟨10, _⟩ => ⟨S131072x400, .f32⟩
  | .hbm, ⟨11, _⟩ => ⟨S1x400, .f32⟩
  | .hbm, ⟨12, _⟩ => ⟨S131072x400, .f32⟩
  | .hbm, ⟨13, _⟩ => ⟨S131072x400, .f32⟩
  | .hbm, ⟨14, _⟩ => ⟨S1x400, .f32⟩
  | .hbm, ⟨15, _⟩ => ⟨S131072x400, .f32⟩
  | .hbm, ⟨16, _⟩ => ⟨S131072x400, .f32⟩
  | .hbm, ⟨17, _⟩ => ⟨S131072x100, .f32⟩
  | .hbm, ⟨18, _⟩ => ⟨S131072x100, .f32⟩
  | .hbm, ⟨19, _⟩ => ⟨S131072x100, .f32⟩
  | .hbm, ⟨20, _⟩ => ⟨S131072x100, .f32⟩
  | .hbm, ⟨21, _⟩ => ⟨S131072x100, .f32⟩
  | .hbm, ⟨22, _⟩ => ⟨S131072x100, .f32⟩
  | .hbm, ⟨23, _⟩ => ⟨S_, .f32⟩
  | .hbm, ⟨24, _⟩ => ⟨S131072x100, .f32⟩
  | .hbm, ⟨25, _⟩ => ⟨S131072x100, .f32⟩
  | .hbm, ⟨26, _⟩ => ⟨S_, .f32⟩
  | .hbm, ⟨27, _⟩ => ⟨S131072x100, .f32⟩
  | .hbm, ⟨28, _⟩ => ⟨S131072x100, .f32⟩
  | .hbm, ⟨29, _⟩ => ⟨S131072x100, .f32⟩
  | .hbm, ⟨30, _⟩ => ⟨S131072x100, .f32⟩
  | .hbm, ⟨31, _⟩ => ⟨S131072x100, .f32⟩
  | .hbm, ⟨32, _⟩ => ⟨S_, .f32⟩
  | .hbm, ⟨33, _⟩ => ⟨S131072x100, .f32⟩
  | .hbm, ⟨34, _⟩ => ⟨S131072x100, .f32⟩
  | .hbm, ⟨35, _⟩ => ⟨S_, .f32⟩
  | .hbm, ⟨36, _⟩ => ⟨S131072x100, .f32⟩
  | .hbm, ⟨37, _⟩ => ⟨S131072x100, .f32⟩
  | .hbm, ⟨38, _⟩ => ⟨S131072x100, .f32⟩
  | .hbm, ⟨39, _⟩ => ⟨S131072x100, .f32⟩
  | .hbm, ⟨40, _⟩ => ⟨S131072x100, .f32⟩
  | .hbm, ⟨41, _⟩ => ⟨S904x400, .f32⟩
  | .hbm, ⟨42, _⟩ => ⟨S131072x400, .f32⟩
  | .hbm, ⟨43, _⟩ => ⟨S1x400, .f32⟩
  | .hbm, ⟨44, _⟩ => ⟨S131072x400, .f32⟩
  | .hbm, ⟨45, _⟩ => ⟨S131072x400, .f32⟩
  | .hbm, ⟨46, _⟩ => ⟨S1x400, .f32⟩
  | .hbm, ⟨47, _⟩ => ⟨S131072x400, .f32⟩
  | .hbm, ⟨48, _⟩ => ⟨S131072x400, .f32⟩
  | .hbm, ⟨49, _⟩ => ⟨S131072x100, .f32⟩
  | .hbm, ⟨50, _⟩ => ⟨S131072x100, .f32⟩
  | .hbm, ⟨51, _⟩ => ⟨S131072x100, .f32⟩
  | .hbm, ⟨52, _⟩ => ⟨S131072x100, .f32⟩
  | .hbm, ⟨53, _⟩ => ⟨S131072x100, .f32⟩
  | .hbm, ⟨54, _⟩ => ⟨S131072x100, .f32⟩
  | .hbm, ⟨55, _⟩ => ⟨S_, .f32⟩
  | .hbm, ⟨56, _⟩ => ⟨S131072x100, .f32⟩
  | .hbm, ⟨57, _⟩ => ⟨S131072x100, .f32⟩
  | .hbm, ⟨58, _⟩ => ⟨S_, .f32⟩
  | .hbm, ⟨59, _⟩ => ⟨S131072x100, .f32⟩
  | .hbm, ⟨60, _⟩ => ⟨S131072x100, .f32⟩
  | .hbm, ⟨61, _⟩ => ⟨S131072x100, .f32⟩
  | .hbm, ⟨62, _⟩ => ⟨S131072x100, .f32⟩
  | .hbm, ⟨63, _⟩ => ⟨S131072x100, .f32⟩
  | .hbm, ⟨64, _⟩ => ⟨S_, .f32⟩
  | .hbm, ⟨65, _⟩ => ⟨S131072x100, .f32⟩
  | .hbm, ⟨66, _⟩ => ⟨S131072x100, .f32⟩
  | .hbm, ⟨67, _⟩ => ⟨S_, .f32⟩
  | .hbm, ⟨68, _⟩ => ⟨S131072x100, .f32⟩
  | .hbm, ⟨69, _⟩ => ⟨S131072x100, .f32⟩
  | .hbm, ⟨70, _⟩ => ⟨S131072x100, .f32⟩
  | .hbm, ⟨71, _⟩ => ⟨S131072x100, .f32⟩
  | .hbm, ⟨72, _⟩ => ⟨S131072x100, .f32⟩
  | .hbm, ⟨73, _⟩ => ⟨S131072x200, .f32⟩
  | _, _ => ⟨S131072x904, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]

class Facts₀ : Prop where
  transposes_S400x904_S904x400_1_0 : S400x904.Transposes [1, 0] S904x400
  bcast_S400_S1x400_1 : S400.BroadcastsInDim S1x400 (![1] : Fin 1 → Fin S1x400.rank)
  bcast_S1x400_S131072x400_0_1 : S1x400.BroadcastsInDim S131072x400 (![0, 1] : Fin 2 → Fin S131072x400.rank)
  slices_S131072x400_S131072x100_0_0 : S131072x400.Slices ![0, 0] S131072x100
  slices_S131072x400_S131072x100_0_100 : S131072x400.Slices ![0, 100] S131072x100
  slices_S131072x400_S131072x100_0_200 : S131072x400.Slices ![0, 200] S131072x100
  slices_S131072x400_S131072x100_0_300 : S131072x400.Slices ![0, 300] S131072x100
  bcast_S_S131072x100 : S_.BroadcastsInDim S131072x100 (![] : Fin 0 → Fin S131072x100.rank)
  concatenates_S131072x100_S131072x100_S131072x200_d1 : Shape.Concatenates [S131072x100, S131072x100] S131072x200 1
  dot_S131072x904_S904x400_S131072x400_1_0_0_1_n_n_wf : DotDims.WF S131072x904 S904x400 S131072x400 [1] [0] [0] [1] [] []

variable [Facts₀]

def dot_S131072x904_S904x400_S131072x400_1_0_0_1_n_n : DotDims S131072x904 S904x400 S131072x400 where
  lhsContracting := [1]
  rhsContracting := [0]
  lhsNonContracting := [0]
  rhsNonContracting := [1]
  lhsBatch := []
  rhsBatch := []
  wf := dot_S131072x904_S904x400_S131072x400_1_0_0_1_n_n_wf

class Facts : Prop extends Facts₀ where

variable [Facts]
-- ==== Proof.ZeroStateLstm.lean ====
/-
  One step of a bidirectional LSTM started from the zero state, as ONE function of the argument arrays,
  index by index over the extended reals.

  With h₀ = c₀ = 0 the recurrent weights never meet a nonzero factor and the forget gate multiplies c₀ = 0,
  so a direction with input weights `w` (400 × 904) and biases `bi`, `bh` (400 each) computes, for a row `r`
  of the input `x` (131072 × 904) and a gate column `g`,

      gate r g = (Σ_k x[r,k] · w[g,k]) + bi[g] + bh[g],

  and, the columns 0…99 being the input gate, 200…299 the candidate and 300…399 the output gate, the hidden
  value of unit `q`

      hidden r q = σ(gate r (300+q)) · tanh(σ(gate r q) · tanh(gate r (200+q))),        σ(z) = 1 / (1 + e^(-z)).

  The result (131072 × 200) holds the forward direction's hidden values in columns 0…99 and the backward
  direction's in columns 100…199.
-/
import Idealize.ShloMosaic.PureOps.Ideal
import Idealize.ShloMosaic.Lib.ValueIdx

noncomputable section

namespace Cert.ZeroStateLstm

open Idealize.ShloMosaic Idealize.ShloMosaic.ValueIdx

/-- A matrix of extended reals with literal extents, and a vector of them. -/
abbrev Mat (a b : ℕ) : Type := (⟨2, ![a, b]⟩ : Shape).Idx → EReal
abbrev Row (a : ℕ) : Type := (⟨1, ![a]⟩ : Shape).Idx → EReal

/-- The pre-activation of gate column `g` at input row `r`: the row's product with the weight's row `g`,
    plus the two biases, added in the order the plain formula `x·wᵀ + bi + bh` adds them. -/
def gate (x : Mat 131072 904) (w : Mat 400 904) (bi bh : Row 400) (r : Fin 131072) (g : Fin 400) : EReal :=
  (∑ k : Fin 904, x (ix2 r k) * w (ix2 g k)) + bi (ix1 g) + bh (ix1 g)

/-- The hidden value of unit `q` at row `r`: the output gate times `tanh` of the cell, the cell being the input
    gate times the candidate (the forget gate's term is `0`). -/
def hidden (x : Mat 131072 904) (w : Mat 400 904) (bi bh : Row 400) (r : Fin 131072) (q : Fin 100) : EReal :=
  Ideal.logistic (gate x w bi bh r ⟨300 + q.val, by omega⟩)
    * Ideal.tanh (Ideal.logistic (gate x w bi bh r ⟨q.val, by omega⟩)
        * Ideal.tanh (gate x w bi bh r ⟨200 + q.val, by omega⟩))

/-- The whole result: the forward direction in the first hundred columns, the backward one in the second. -/
def both (x : Mat 131072 904) (wf : Mat 400 904) (fbi fbh : Row 400) (wb : Mat 400 904) (bbi bbh : Row 400) :
    Mat 131072 200 := fun i =>
  if h : (i 1).val < 100 then hidden x wf fbi fbh (i 0) ⟨(i 1).val, h⟩
  else hidden x wb bbi bbh (i 0) ⟨(i 1).val - 100, by have h2 : (i 1).val < 200 := (i 1).isLt; omega⟩

/-- In a column below 100 the result is the forward direction's hidden value. -/
theorem both_left (x : Mat 131072 904) (wf : Mat 400 904) (fbi fbh : Row 400) (wb : Mat 400 904) (bbi bbh : Row 400)
    (r : Fin 131072) (c : Fin 200) (q : Fin 100) (hq : c.val = q.val) :
    both x wf fbi fbh wb bbi bbh (ix2 r c) = hidden x wf fbi fbh r q := by
  have hlt : c.val < 100 := by have := q.isLt; omega
  show (if h : c.val < 100 then hidden x wf fbi fbh r ⟨c.val, h⟩ else _) = _
  rw [dif_pos hlt]
  exact congrArg (hidden x wf fbi fbh r) (Fin.ext hq)

/-- In a column from 100 on it is the backward direction's, at the column less 100. -/
theorem both_right (x : Mat 131072 904) (wf : Mat 400 904) (fbi fbh : Row 400) (wb : Mat 400 904) (bbi bbh : Row 400)
    (r : Fin 131072) (c : Fin 200) (q : Fin 100) (hq : c.val = 100 + q.val) :
    both x wf fbi fbh wb bbi bbh (ix2 r c) = hidden x wb bbi bbh r q := by
  have hge : ¬ c.val < 100 := by omega
  show (if h : c.val < 100 then _ else hidden x wb bbi bbh r ⟨c.val - 100, _⟩) = _
  rw [dif_neg hge]
  exact congrArg (hidden x wb bbi bbh r) (Fin.ext (by show c.val - 100 = q.val; omega))

/-- The float pattern of `1.0` denotes the real number one. -/
theorem ofBits_one : Ideal.ofBits .f32 0x3F800000#32 = 1 := by
  simp [Ideal.ofBits, Ideal.ieee, -EReal.coe_mul]; norm_num

/-- The logistic function as the quotient the plain formula spells, with its two ones written as float patterns. -/
theorem logistic_spelled (z : EReal) :
    Ideal.div (Ideal.ofBits .f32 0x3F800000#32) (Ideal.ofBits .f32 0x3F800000#32 + Ideal.exp (-z)) = Ideal.logistic z := by
  rw [ofBits_one]; rfl

end Cert.ZeroStateLstm

end
-- ==== Proof.ReferenceStep.lean ====
/-
  The reference's result is the zero-state bidirectional LSTM step `ZeroStateLstm.both` of its arguments,
  index by index.

  Read one operation at a time: the product `x · wᵀ` at (r, g) is Σ_k x[r,k] · w[g,k] (the transposed weight read
  back at (g, k)); each bias is broadcast along the rows, so at (r, g) it is its entry g; the four slices of the
  pre-activations take columns q, 100+q, 200+q and 300+q; `1 / (1 + e^(-z))` with its ones as float patterns is
  the logistic function; and the concatenation along the columns reads the forward direction below column 100
  and the backward direction, at the column less 100, from there on.
-/
import proofs.«143538_j54924041781763_1_alg».proof.Proof.Gen.ReferenceIdeal.Read
import proofs.«143538_j54924041781763_1_alg».proof.Proof.ZeroStateLstm

noncomputable section

namespace Cert.ReferenceIdeal.StepValue

open Cert.ReferenceIdeal Cert.ReferenceIdeal.Gen Cert.ReferenceIdeal.Read
open Idealize.ShloMosaic Idealize.ShloMosaic.ValueIdx Cert.ZeroStateLstm

variable (x : (⟨S131072x904, .f32⟩ : BufTy).Contents (Elt Ideal))
variable (w : (⟨S400x904, .f32⟩ : BufTy).Contents (Elt Ideal))
variable (bi bh : (⟨S400, .f32⟩ : BufTy).Contents (Elt Ideal))

/-- The forward direction's pre-activations at row `r`, gate column `g`. -/
theorem gate_fwd (r : Fin 131072) (g : Fin 400) :
    val_main_v7 (F := Ideal) x w bi bh (ix2 r g) = gate x w bi bh r g := by
  have e1 : ∀ k : Fin 904, lidx_main_v1 (ix2 r g) k = ix2 r k := fun k =>
    funext fun a => match a with | ⟨0, _⟩ => rfl | ⟨1, _⟩ => rfl
  have e2 : ∀ k : Fin 904, idx_main_v0 (ridx_main_v1 (ix2 r g) k) = ix2 g k := fun k =>
    funext fun a => match a with | ⟨0, _⟩ => rfl | ⟨1, _⟩ => rfl
  have e3 : idx_main_v2 (idx_main_v3 (ix2 r g)) = ix1 g := funext fun a => match a with | ⟨0, _⟩ => rfl
  have e4 : idx_main_v5 (idx_main_v6 (ix2 r g)) = ix1 g := funext fun a => match a with | ⟨0, _⟩ => rfl
  rw [val_main_v7_apply, val_main_v4_apply, val_main_v1_apply, val_main_v3_apply, val_main_v2_apply,
    val_main_v6_apply, val_main_v5_apply]
  simp only [val_main_v0_apply, e1, e2, e3, e4]
  rfl

/-- The backward direction's, the same operations over the other weights and biases. -/
theorem gate_bwd (r : Fin 131072) (g : Fin 400) :
    val_main_v35 (F := Ideal) x w bi bh (ix2 r g) = gate x w bi bh r g := by
  have e1 : ∀ k : Fin 904, lidx_main_v29 (ix2 r g) k = ix2 r k := fun k =>
    funext fun a => match a with | ⟨0, _⟩ => rfl | ⟨1, _⟩ => rfl
  have e2 : ∀ k : Fin 904, idx_main_v28 (ridx_main_v29 (ix2 r g) k) = ix2 g k := fun k =>
    funext fun a => match a with | ⟨0, _⟩ => rfl | ⟨1, _⟩ => rfl
  have e3 : idx_main_v30 (idx_main_v31 (ix2 r g)) = ix1 g := funext fun a => match a with | ⟨0, _⟩ => rfl
  have e4 : idx_main_v33 (idx_main_v34 (ix2 r g)) = ix1 g := funext fun a => match a with | ⟨0, _⟩ => rfl
  rw [val_main_v35_apply, val_main_v32_apply, val_main_v29_apply, val_main_v31_apply, val_main_v30_apply,
    val_main_v34_apply, val_main_v33_apply]
  simp only [val_main_v28_apply, e1, e2, e3, e4]
  rfl

/-- The forward direction's hidden value of unit `q` at row `r`. -/
theorem hidden_fwd (r : Fin 131072) (q : Fin 100) :
    val_main_v27 (F := Ideal) x w bi bh (ix2 r q) = hidden x w bi bh r q := by
  have i8 : idx_main_v8 (ix2 r q) = ix2 r (⟨q.val, by omega⟩ : Fin 400) :=
    funext fun a => match a with | ⟨0, _⟩ => rfl | ⟨1, _⟩ => rfl
  have i10 : idx_main_v10 (ix2 r q) = ix2 r (⟨200 + q.val, by omega⟩ : Fin 400) :=
    funext fun a => match a with | ⟨0, _⟩ => rfl | ⟨1, _⟩ => rfl
  have i11 : idx_main_v11 (ix2 r q) = ix2 r (⟨300 + q.val, by omega⟩ : Fin 400) :=
    funext fun a => match a with | ⟨0, _⟩ => rfl | ⟨1, _⟩ => rfl
  simp only [val_main_v27_apply, val_main_v26_apply, val_main_v25_apply, val_main_v24_apply, val_main_v23_apply,
    val_main_v22_apply, val_main_v21_apply, val_main_v20_apply, val_main_v19_apply, val_main_v18_apply,
    val_main_v17_apply, val_main_v16_apply, val_main_v15_apply, val_main_v14_apply, val_main_v13_apply,
    val_main_v12_apply, val_main_v11_apply, val_main_v10_apply, val_main_v8_apply,
    val_main_cst_apply, val_main_cst_0_apply, val_main_cst_1_apply, val_main_cst_2_apply,
    i8, i10, i11, gate_fwd]
  unfold Cert.ZeroStateLstm.hidden
  simp only [Ideal.hostDivf_def, Ideal.addf_def, Ideal.hostUnary_exp_def, Ideal.hostNegf_def, Ideal.negf_def,
    Ideal.mulf_def, Ideal.hostUnary_tanh_def, Ideal.ofBits_def, logistic_spelled]

/-- The backward direction's. -/
theorem hidden_bwd (r : Fin 131072) (q : Fin 100) :
    val_main_v55 (F := Ideal) x w bi bh (ix2 r q) = hidden x w bi bh r q := by
  have i36 : idx_main_v36 (ix2 r q) = ix2 r (⟨q.val, by omega⟩ : Fin 400) :=
    funext fun a => match a with | ⟨0, _⟩ => rfl | ⟨1, _⟩ => rfl
  have i38 : idx_main_v38 (ix2 r q) = ix2 r (⟨200 + q.val, by omega⟩ : Fin 400) :=
    funext fun a => match a with | ⟨0, _⟩ => rfl | ⟨1, _⟩ => rfl
  have i39 : idx_main_v39 (ix2 r q) = ix2 r (⟨300 + q.val, by omega⟩ : Fin 400) :=
    funext fun a => match a with | ⟨0, _⟩ => rfl | ⟨1, _⟩ => rfl
  simp only [val_main_v55_apply, val_main_v54_apply, val_main_v53_apply, val_main_v52_apply, val_main_v51_apply,
    val_main_v50_apply, val_main_v49_apply, val_main_v48_apply, val_main_v47_apply, val_main_v46_apply,
    val_main_v45_apply, val_main_v44_apply, val_main_v43_apply, val_main_v42_apply, val_main_v41_apply,
    val_main_v40_apply, val_main_v39_apply, val_main_v38_apply, val_main_v36_apply,
    val_main_cst_3_apply, val_main_cst_4_apply, val_main_cst_5_apply, val_main_cst_6_apply,
    i36, i38, i39, gate_bwd]
  unfold Cert.ZeroStateLstm.hidden
  simp only [Ideal.hostDivf_def, Ideal.addf_def, Ideal.hostUnary_exp_def, Ideal.hostNegf_def, Ideal.negf_def,
    Ideal.mulf_def, Ideal.hostUnary_tanh_def, Ideal.ofBits_def, logistic_spelled]

/-- The reference's whole result: the two directions' hidden values joined along the columns. A column below 100
    reads the forward direction at the same column, a column from 100 on the backward direction at the column
    less 100. -/
theorem result_eq (x : (⟨S131072x904, .f32⟩ : BufTy).Contents (Elt Ideal))
    (wf : (⟨S400x904, .f32⟩ : BufTy).Contents (Elt Ideal)) (fbi fbh : (⟨S400, .f32⟩ : BufTy).Contents (Elt Ideal))
    (wb : (⟨S400x904, .f32⟩ : BufTy).Contents (Elt Ideal)) (bbi bbh : (⟨S400, .f32⟩ : BufTy).Contents (Elt Ideal)) :
    val_main_v56 (F := Ideal) x wf fbi fbh wb bbi bbh = both x wf fbi fbh wb bbi bbh := by
  funext j
  obtain ⟨r, c, rfl⟩ : ∃ (r : Fin 131072) (c : Fin 200), j = ix2 r c := ⟨j 0, j 1, eq_ix2 j⟩
  unfold val_main_v56
  by_cases hc : c.val < 100
  · refine (concatenate_pair_apply_left (1 : Fin S131072x200.rank) _ _ concatenates_S131072x100_S131072x100_S131072x200_d1 (ix2 r c) rfl
      (ix2 r (⟨c.val, hc⟩ : Fin 100)) (fun b => match b with | ⟨0, _⟩ => rfl | ⟨1, _⟩ => rfl)).trans ?_
    rw [hidden_fwd, both_left x wf fbi fbh wb bbi bbh r c ⟨c.val, hc⟩ rfl]
  · have hc2 : c.val < 200 := c.isLt
    refine (concatenate_pair_apply_right (1 : Fin S131072x200.rank) _ _ concatenates_S131072x100_S131072x100_S131072x200_d1 (ix2 r c) rfl rfl
      (ix2 r (⟨c.val - 100, by omega⟩ : Fin 100))
      (fun b hb => match b, hb with
        | ⟨0, _⟩, _ => rfl
        | ⟨1, _⟩, hb => absurd rfl hb)
      (by show c.val - 100 + 100 = c.val; omega)).trans ?_
    rw [hidden_bwd, both_right x wf fbi fbh wb bbi bbh r c ⟨c.val - 100, by omega⟩ (by show c.val = 100 + (c.val - 100); omega)]

end Cert.ReferenceIdeal.StepValue

end
-- ==== Proof.BodyStep.lean ====
/-
  The kernel body's one stored value, read at an index, is the zero-state bidirectional LSTM step
  `ZeroStateLstm.both` at the row of the whole input that the block's row is.

  The body holds a block of 2048 input rows, the two weights already transposed (904 × 400) and each direction's
  two biases already added into one row (1 × 400). At (p, g) its matrix product into a zero accumulator is
  Σ_k x[p,k] · wᵀ[k,g]; the bias row broadcast along the rows adds its entry g; the changes of float format are the
  identity on the extended reals. So at (p, g) the body's pre-activation is Σ_k x[p,k] · w[g,k] + (bi[g] + bh[g]),
  which is `gate` by the associativity of the sum. The slices at column offsets 0, 200 and 300 take the input
  gate, the candidate and the output gate; the logistic function and tanh act entry by entry; and the
  concatenation along the columns puts the forward direction below column 100 and the backward one from there on.
-/
import proofs.«143538_j54924041781763_1_alg».proof.Proof.Gen.KernelIdeal.Skeleton
import proofs.«143538_j54924041781763_1_alg».proof.Proof.ZeroStateLstm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StepValue

open Cert.KernelIdeal Cert.KernelIdeal.Gen
open Idealize.ShloMosaic Idealize.ShloMosaic.ValueIdx Cert.ZeroStateLstm

/-! ## The matrix product at an index -/

theorem lhs_rows_0 (i : S2048x400.Idx) (q : dot_S2048x904_S904x400_S2048x400_1_0_0_1_n_n.contr.Idx) :
    (dot_S2048x904_S904x400_S2048x400_1_0_0_1_n_n.lhsIdx i q 0).val = (i 0).val := by
  unfold DotDims.lhsIdx
  rw [dif_neg (show ¬(0 : Fin S2048x904.rank) ∈ dot_S2048x904_S904x400_S2048x400_1_0_0_1_n_n.lhsBatch by decide), dif_pos (show (0 : Fin S2048x904.rank) ∈ dot_S2048x904_S904x400_S2048x400_1_0_0_1_n_n.lhsNonContracting by decide)]
  rfl
theorem lhs_rows_1 (i : S2048x400.Idx) (q : dot_S2048x904_S904x400_S2048x400_1_0_0_1_n_n.contr.Idx) :
    (dot_S2048x904_S904x400_S2048x400_1_0_0_1_n_n.lhsIdx i q 1).val = (q ⟨0, by decide⟩).val :=
  dot_S2048x904_S904x400_S2048x400_1_0_0_1_n_n.lhsIdx_val_of_single rfl i q
theorem rhs_cols_0 (i : S2048x400.Idx) (q : dot_S2048x904_S904x400_S2048x400_1_0_0_1_n_n.contr.Idx) :
    (dot_S2048x904_S904x400_S2048x400_1_0_0_1_n_n.rhsIdx i q 0).val = (q ⟨0, by decide⟩).val :=
  dot_S2048x904_S904x400_S2048x400_1_0_0_1_n_n.rhsIdx_val_of_single rfl i q
theorem rhs_cols_1 (i : S2048x400.Idx) (q : dot_S2048x904_S904x400_S2048x400_1_0_0_1_n_n.contr.Idx) :
    (dot_S2048x904_S904x400_S2048x400_1_0_0_1_n_n.rhsIdx i q 1).val = (i 1).val := by
  unfold DotDims.rhsIdx
  rw [dif_neg (show ¬(1 : Fin S904x400.rank) ∈ dot_S2048x904_S904x400_S2048x400_1_0_0_1_n_n.rhsBatch by decide), dif_pos (show (1 : Fin S904x400.rank) ∈ dot_S2048x904_S904x400_S2048x400_1_0_0_1_n_n.rhsNonContracting by decide)]
  rfl

/-- A block of rows times a 904 × 400 matrix, into the zero accumulator, at (p, g): the sum over the 904 shared
    coordinates of the products. -/
theorem product_at (a : FVec Ideal S2048x904 .bf16) (b : FVec Ideal S904x400 .bf16) (p : Fin 2048) (g : Fin 400) :
    matmul dot_S2048x904_S904x400_S2048x400_1_0_0_1_n_n none a b (constant (F := Ideal) S2048x400 .f32 0x00000000#32) (ix2 p g)
      = ∑ k : Fin 904, a (ix2 p k) * b (ix2 k g) := by
  simp only [matmul]
  rw [Ideal.matmul_constant_zero_apply, ← Equiv.sum_comp (contrEquiv1 dot_S2048x904_S904x400_S2048x400_1_0_0_1_n_n 904 rfl rfl).symm]
  refine Finset.sum_congr rfl fun k _ => ?_
  have hk := contrEquiv1_symm_val dot_S2048x904_S904x400_S2048x400_1_0_0_1_n_n 904 rfl rfl k
  have el : dot_S2048x904_S904x400_S2048x400_1_0_0_1_n_n.lhsIdx (ix2 p g) ((contrEquiv1 dot_S2048x904_S904x400_S2048x400_1_0_0_1_n_n 904 rfl rfl).symm k) = ix2 p k := funext fun ax => Fin.ext (by
    match ax with
    | ⟨0, _⟩ => exact lhs_rows_0 _ _
    | ⟨1, _⟩ => exact (lhs_rows_1 _ _).trans hk)
  have er : dot_S2048x904_S904x400_S2048x400_1_0_0_1_n_n.rhsIdx (ix2 p g) ((contrEquiv1 dot_S2048x904_S904x400_S2048x400_1_0_0_1_n_n 904 rfl rfl).symm k) = ix2 k g := funext fun ax => Fin.ext (by
    match ax with
    | ⟨0, _⟩ => exact (rhs_cols_0 _ _).trans hk
    | ⟨1, _⟩ => exact rhs_cols_1 _ _)
  rw [el, er]

/-! ## Entry-by-entry operations -/

theorem logistic_at {s : Shape} (a : FVec Ideal s .f32) (i : s.Idx) : logistic a i = Ideal.logistic (a i) := rfl
theorem tanh_at {s : Shape} (a : FVec Ideal s .f32) (i : s.Idx) : tanh a i = Ideal.tanh (a i) := rfl

/-! ## One direction -/

/-- The body's pre-activations of one direction at (p, g), from the block `x0`, the transposed weight `wT` and the
    bias row `b`. -/
theorem preact_at (x0 : Vec Ideal S2048x904 .f32) (wT : Vec Ideal S904x400 .bf16) (b : Vec Ideal S1x400 .f32)
    (p : Fin 2048) (g : Fin 400) :
    addf (matmul (φ₁ := .bf16) (φ₂ := .bf16) dot_S2048x904_S904x400_S2048x400_1_0_0_1_n_n none (truncf .bf16 x0 bitsLt_bf16_f32) (shapeCast S904x400 wT shapeCasts_S904x400_S904x400)
        (constant (F := Ideal) S2048x400 .f32 0x00000000#32))
      (broadcastTo S2048x400 (shapeCast S1x400 b shapeCasts_S1x400_S1x400) broadcasts_S1x400_S2048x400) (ix2 p g)
      = (∑ k : Fin 904, x0 (ix2 p k) * wT (ix2 k g)) + b (ix2 (0 : Fin 1) g) := by
  rw [shapeCast_self, shapeCast_self, addf_apply, product_at, broadcastTo_1b_ab_apply]
  rfl

/-- One direction's hidden value at (p, q) from its pre-activations `gates`, whose row `p` is `γ`: the slices at
    column offsets 300, 0 and 200 are the output gate, the input gate and the candidate. -/
theorem hidden_at (gates : FVec Ideal S2048x400 .f32) (γ : Fin 400 → EReal) (p : Fin 2048)
    (hγ : ∀ g : Fin 400, gates (ix2 p g) = γ g) (q : Fin 100) :
    mulf (logistic (extractStridedSlice S2048x100 ![0, 300] gates slices_S2048x400_o0_300_S2048x100))
      (tanh (mulf (logistic (extractStridedSlice S2048x100 ![0, 0] gates slices_S2048x400_o0_0_S2048x100))
        (tanh (extractStridedSlice S2048x100 ![0, 200] gates slices_S2048x400_o0_200_S2048x100)))) (ix2 p q)
      = Ideal.logistic (γ ⟨300 + q.val, by omega⟩)
        * Ideal.tanh (Ideal.logistic (γ ⟨q.val, by omega⟩) * Ideal.tanh (γ ⟨200 + q.val, by omega⟩)) := by
  rw [mulf_apply, logistic_at, tanh_at, mulf_apply, logistic_at, tanh_at,
    slice2_axis1_apply 300 gates slices_S2048x400_o0_300_S2048x100 p q ⟨300 + q.val, by omega⟩ rfl,
    slice2_axis1_apply 0 gates slices_S2048x400_o0_0_S2048x100 p q ⟨q.val, by omega⟩ (Nat.zero_add _).symm,
    slice2_axis1_apply 200 gates slices_S2048x400_o0_200_S2048x100 p q ⟨200 + q.val, by omega⟩ rfl,
    hγ, hγ, hγ]

/-- One direction's pre-activation is `gate` at the row of the whole input the block's row is, given what the
    block, the transposed weight and the summed bias row hold entry by entry: the body adds the product to the
    biases' sum, `gate` adds the biases one after the other, and the sum of extended reals is associative. -/
theorem preact_eq_gate (X : Mat 131072 904) (w : Mat 400 904) (bi bh : Row 400)
    (x0 : Vec Ideal S2048x904 .f32) (wT : Vec Ideal S904x400 .bf16) (b : Vec Ideal S1x400 .f32)
    (row : Fin 2048 → Fin 131072)
    (hx : ∀ (p : Fin 2048) (k : Fin 904), x0 (ix2 p k) = X (ix2 (row p) k))
    (hw : ∀ (k : Fin 904) (g : Fin 400), wT (ix2 k g) = w (ix2 g k))
    (hb : ∀ g : Fin 400, b (ix2 (0 : Fin 1) g) = bi (ix1 g) + bh (ix1 g))
    (p : Fin 2048) (g : Fin 400) :
    addf (matmul (φ₁ := .bf16) (φ₂ := .bf16) dot_S2048x904_S904x400_S2048x400_1_0_0_1_n_n none (truncf .bf16 x0 bitsLt_bf16_f32) (shapeCast S904x400 wT shapeCasts_S904x400_S904x400)
        (constant (F := Ideal) S2048x400 .f32 0x00000000#32))
      (broadcastTo S2048x400 (shapeCast S1x400 b shapeCasts_S1x400_S1x400) broadcasts_S1x400_S2048x400) (ix2 p g)
      = gate X w bi bh (row p) g := by
  rw [preact_at, hb]
  exact (congrArg (· + (bi (ix1 g) + bh (ix1 g))) (Finset.sum_congr rfl fun k _ => by rw [hx, hw])).trans
    (add_assoc _ _ _).symm

/-- THE STORED VALUE at (p, c): the step at (row p, c), for any block, weights and bias rows that hold, entry by
    entry, the input's rows `row p`, the transposed weights and the biases' sums. -/
theorem stored_at (X : Mat 131072 904) (wf : Mat 400 904) (fbi fbh : Row 400) (wb : Mat 400 904) (bbi bbh : Row 400)
    (x0 : Vec Ideal S2048x904 .f32) (v2 v4 : Vec Ideal S904x400 .bf16) (v6 v8 : Vec Ideal S1x400 .f32)
    (row : Fin 2048 → Fin 131072)
    (hx : ∀ (p : Fin 2048) (k : Fin 904), x0 (ix2 p k) = X (ix2 (row p) k))
    (h2 : ∀ (k : Fin 904) (g : Fin 400), v2 (ix2 k g) = wf (ix2 g k))
    (h4 : ∀ (k : Fin 904) (g : Fin 400), v4 (ix2 k g) = wb (ix2 g k))
    (h6 : ∀ g : Fin 400, v6 (ix2 (0 : Fin 1) g) = fbi (ix1 g) + fbh (ix1 g))
    (h8 : ∀ g : Fin 400, v8 (ix2 (0 : Fin 1) g) = bbi (ix1 g) + bbh (ix1 g))
    (p : Fin 2048) (c : Fin 200) :
    k0_pay1 (F := Ideal) x0 v2 v4 v6 v8 (ix2 p c) = both X wf fbi fbh wb bbi bbh (ix2 (row p) c) := by
  unfold k0_pay1
  by_cases hc : c.val < 100
  · refine (concatenate_pair_apply_left (1 : Fin S2048x200.rank) _ _ concatenates_S2048x100_S2048x100_S2048x200_d1 (ix2 p c) rfl
      (ix2 p (⟨c.val, hc⟩ : Fin 100)) (fun b => match b with | ⟨0, _⟩ => rfl | ⟨1, _⟩ => rfl)).trans ?_
    rw [both_left X wf fbi fbh wb bbi bbh (row p) c ⟨c.val, hc⟩ rfl]
    exact hidden_at _ (gate X wf fbi fbh (row p)) p
      (fun g => preact_eq_gate X wf fbi fbh x0 v2 v6 row hx h2 h6 p g) ⟨c.val, hc⟩
  · have hc2 : c.val < 200 := c.isLt
    refine (concatenate_pair_apply_right (1 : Fin S2048x200.rank) _ _ concatenates_S2048x100_S2048x100_S2048x200_d1 (ix2 p c) rfl rfl
      (ix2 p (⟨c.val - 100, by omega⟩ : Fin 100))
      (fun b hb => match b, hb with
        | ⟨0, _⟩, _ => rfl
        | ⟨1, _⟩, hb => absurd rfl hb)
      (by show c.val - 100 + 100 = c.val; omega)).trans ?_
    rw [both_right X wf fbi fbh wb bbi bbh (row p) c ⟨c.val - 100, by omega⟩ (by show c.val = 100 + (c.val - 100); omega)]
    exact hidden_at _ (gate X wb bbi bbh (row p)) p
      (fun g => preact_eq_gate X wb bbi bbh x0 v4 v8 row hx h4 h8 p g) ⟨c.val - 100, by omega⟩

end Cert.KernelIdeal.StepValue

end
-- ==== Proof.KernelRun.lean ====
/-
  The idealized kernel's result array after the run is the zero-state bidirectional LSTM step of the arguments.

  What the region finds: the input as launched; each weight transposed (the change of float format is the
  identity on the extended reals), so its entry (k, g) is the weight's entry (g, k); each direction's two biases
  added and cast to one row, so that row's entry g is the sum of the two biases' entries g. Grid point t stages
  rows 2048·t … 2048·t + 2047 of the input and the whole of the four small arrays, and writes back rows
  2048·t … 2048·t + 2047 of the result. By the body's value at an index, what point t writes back is block t of
  the step; the 64 blocks cover the result's rows, so the array ends holding the step.
-/
import proofs.«143538_j54924041781763_1_alg».proof.Proof.Gen.KernelIdeal.Value
import proofs.«143538_j54924041781763_1_alg».proof.Proof.BodyStep
import Idealize.ShloMosaic.Lib.StableHlo.Run
import Idealize.ShloMosaic.Lib.ValueLayout

noncomputable section

namespace Cert.KernelIdeal.StepValue

open Cert.KernelIdeal Cert.KernelIdeal.Gen Cert.KernelIdeal.Value
open Idealize.ShloMosaic Idealize.ShloMosaic.TcCoe Idealize.ShloMosaic.ValueIdx Idealize.SL.Sem Idealize.ShloMosaic.StableHlo
open Idealize.ShloMosaic.Pipeline (Dat)
open Cert.ZeroStateLstm

variable (m : (ℓ : Loc nD τ sig) → Buf (Elt Ideal) ℓ) (ρ : Dev nD → PrngReg)

/-! ## The arrays, each at its literal type -/

/-- The arguments as launched on core `c`: the input, and per direction the input weight and the two biases. -/
abbrev inX (c : Dev nD) : Mat 131072 904 := m ((c : Thread nD τ).loc main_arg0)
abbrev inWf (c : Dev nD) : Mat 400 904 := m ((c : Thread nD τ).loc main_arg1)
abbrev inFbi (c : Dev nD) : Row 400 := m ((c : Thread nD τ).loc main_arg3)
abbrev inFbh (c : Dev nD) : Row 400 := m ((c : Thread nD τ).loc main_arg4)
abbrev inWb (c : Dev nD) : Mat 400 904 := m ((c : Thread nD τ).loc main_arg5)
abbrev inBbi (c : Dev nD) : Row 400 := m ((c : Thread nD τ).loc main_arg7)
abbrev inBbh (c : Dev nD) : Row 400 := m ((c : Thread nD τ).loc main_arg8)

/-- The four small arrays as the region finds them: the transposed weights and the summed bias rows. -/
abbrev stagedWf (c : Dev nD) : Mat 904 400 := V m c main_v5
abbrev stagedWb (c : Dev nD) : Mat 904 400 := V m c main_v7
abbrev stagedBf (c : Dev nD) : Mat 1 400 := V m c main_v1
abbrev stagedBb (c : Dev nD) : Mat 1 400 := V m c main_v3

/-! ## What the region finds in the four small arrays -/

/-- The forward weight as staged: transposed. -/
theorem weight_fwd_at (c : Dev nD) (k : Fin 904) (g : Fin 400) :
    stagedWf m c (ix2 k g) = inWf m c (ix2 g k) := by
  have e : stagedWf m c
      = truncf (F := Ideal) .bf16 (transpose S904x400 [1, 0] (inWf m c) transposes_S400x904_S904x400_1_0) bitsLt_bf16_f32 := by
    dsimp only [stagedWf, inWf, Gen.V, Gen.hostOps0]; after_results <;> rfl
  rw [e, truncf_apply]
  exact transpose_ix2_apply _ transposes_S400x904_S904x400_1_0 k g

/-- The backward weight as staged: transposed. -/
theorem weight_bwd_at (c : Dev nD) (k : Fin 904) (g : Fin 400) :
    stagedWb m c (ix2 k g) = inWb m c (ix2 g k) := by
  have e : stagedWb m c
      = truncf (F := Ideal) .bf16 (transpose S904x400 [1, 0] (inWb m c) transposes_S400x904_S904x400_1_0) bitsLt_bf16_f32 := by
    dsimp only [stagedWb, inWb, Gen.V, Gen.hostOps0]; after_results <;> rfl
  rw [e, truncf_apply]
  exact transpose_ix2_apply _ transposes_S400x904_S904x400_1_0 k g

/-- The forward bias row as staged: the two biases' sum. -/
theorem bias_fwd_at (c : Dev nD) (g : Fin 400) :
    stagedBf m c (ix2 (0 : Fin 1) g) = inFbi m c (ix1 g) + inFbh m c (ix1 g) := by
  have e : stagedBf m c
      = shapeCast S1x400 (addf (F := Ideal) (φ := .f32) (inFbi m c) (inFbh m c)) shapeCasts_S400_S1x400 := by
    dsimp only [stagedBf, inFbi, inFbh, Gen.V, Gen.hostOps0]; after_results <;> rfl
  rw [e, shapeCast_a_1a_apply]
  rfl

/-- The backward bias row as staged: the two biases' sum. -/
theorem bias_bwd_at (c : Dev nD) (g : Fin 400) :
    stagedBb m c (ix2 (0 : Fin 1) g) = inBbi m c (ix1 g) + inBbh m c (ix1 g) := by
  have e : stagedBb m c
      = shapeCast S1x400 (addf (F := Ideal) (φ := .f32) (inBbi m c) (inBbh m c)) shapeCasts_S400_S1x400 := by
    dsimp only [stagedBb, inBbi, inBbh, Gen.V, Gen.hostOps0]; after_results <;> rfl
  rw [e, shapeCast_a_1a_apply]
  rfl

/-! ## What each grid point writes back -/

/-- The step of the arguments as launched, on core `c`. -/
abbrev stepOf (c : Dev nD) : S131072x200.Idx → EReal :=
  both (inX m c) (inWf m c) (inFbi m c) (inFbh m c) (inWb m c) (inBbi m c) (inBbh m c)

theorem offsets_zero : (![0, 0] : Fin 2 → Nat) = fun _ => 0 := funext fun a => by fin_cases a <;> rfl

/-- The printed index maps, decided over the 64 grid points: the input's and the result's block of rows is the
    point's number; every other block index is 0. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row of the whole input that row `p` of point `t`'s block is. -/
def rowOf (t : Fin cfg0.N) (p : Fin 2048) : Fin 131072 :=
  ⟨t.val * 2048 + p.val, by have ht : t.val < 64 := lt_of_lt_of_eq t.isLt N_0; have hp := p.isLt; omega⟩

/-- WHAT POINT `t` WRITES BACK is block `t` of the step. -/
theorem flushed_eq (c : Dev nD) (t : Fin cfg0.N) :
    (dats m 0 c).flushed 5 t = ((cfg0.win 5).blk t).view.read (Elt Ideal) (stepOf m c) := by
  rw [Value.flushed5]
  unfold out0_5
  rw [View.canon_unit_zero offsets_zero]
  simp only [View.ld_unit_zero (S := S2048x904) offsets_zero, View.ld_unit_zero (S := S904x400) offsets_zero,
    View.ld_unit_zero (S := S1x400) offsets_zero]
  obtain ⟨a00, a01, a10, a11, a20, a21, a30, a31, a40, a41, a50, a51⟩ := index_maps t
  funext j
  obtain ⟨p, q, rfl⟩ : ∃ (p : Fin 2048) (q : Fin 200), j = ix2 p q := ⟨j 0, j 1, eq_ix2 j⟩
  show k0_pay1 (F := Ideal) (iblk m c 0 t) (iblk m c 1 t) (iblk m c 2 t) (iblk m c 3 t) (iblk m c 4 t) (ix2 p q)
    = stepOf m c (((cfg0.win 5).blk t).view.emb (ix2 p q))
  have hout : ((cfg0.win 5).blk t).view.emb (ix2 p q) = ix2 (rowOf t p) q := by
    funext a; apply Fin.ext
    match a with
    | ⟨0, _⟩ => show win0_5.index t (0 : Fin 2) * 2048 + 1 * p.val = t.val * 2048 + p.val; omega
    | ⟨1, _⟩ => show win0_5.index t (1 : Fin 2) * 200 + 1 * q.val = q.val; omega
  rw [hout]
  refine stored_at (inX m c) (inWf m c) (inFbi m c) (inFbh m c) (inWb m c) (inBbi m c) (inBbh m c)
    (iblk m c 0 t) (iblk m c 1 t) (iblk m c 2 t) (iblk m c 3 t) (iblk m c 4 t) (rowOf t) ?_ ?_ ?_ ?_ ?_ p q
  · intro p k
    show V m c main_arg0 (((cfg0.win 0).blk t).view.emb (ix2 p k)) = _
    rw [V_main_arg0]
    refine congrArg (inX m c) ?_
    funext a; apply Fin.ext
    match a with
    | ⟨0, _⟩ => show win0_0.index t (0 : Fin 2) * 2048 + 1 * p.val = t.val * 2048 + p.val; omega
    | ⟨1, _⟩ => show win0_0.index t (1 : Fin 2) * 904 + 1 * k.val = k.val; omega
  · intro k g
    show V m c main_v5 (((cfg0.win 1).blk t).view.emb (ix2 k g)) = _
    have he : ((cfg0.win 1).blk t).view.emb (ix2 k g) = ix2 k g := by
      funext a; apply Fin.ext
      match a with
      | ⟨0, _⟩ => show win0_1.index t (0 : Fin 2) * 904 + 1 * k.val = k.val; omega
      | ⟨1, _⟩ => show win0_1.index t (1 : Fin 2) * 400 + 1 * g.val = g.val; omega
    rw [he]
    exact weight_fwd_at m c k g
  · intro k g
    show V m c main_v7 (((cfg0.win 2).blk t).view.emb (ix2 k g)) = _
    have he : ((cfg0.win 2).blk t).view.emb (ix2 k g) = ix2 k g := by
      funext a; apply Fin.ext
      match a with
      | ⟨0, _⟩ => show win0_2.index t (0 : Fin 2) * 904 + 1 * k.val = k.val; omega
      | ⟨1, _⟩ => show win0_2.index t (1 : Fin 2) * 400 + 1 * g.val = g.val; omega
    rw [he]
    exact weight_bwd_at m c k g
  · intro g
    show V m c main_v1 (((cfg0.win 3).blk t).view.emb (ix2 (0 : Fin 1) g)) = _
    have he : ((cfg0.win 3).blk t).view.emb (ix2 (0 : Fin 1) g) = ix2 (0 : Fin 1) g := by
      funext a; apply Fin.ext
      match a with
      | ⟨0, _⟩ => show win0_3.index t (0 : Fin 2) * 1 + 1 * 0 = 0; omega
      | ⟨1, _⟩ => show win0_3.index t (1 : Fin 2) * 400 + 1 * g.val = g.val; omega
    rw [he]
    exact bias_fwd_at m c g
  · intro g
    show V m c main_v3 (((cfg0.win 4).blk t).view.emb (ix2 (0 : Fin 1) g)) = _
    have he : ((cfg0.win 4).blk t).view.emb (ix2 (0 : Fin 1) g) = ix2 (0 : Fin 1) g := by
      funext a; apply Fin.ext
      match a with
      | ⟨0, _⟩ => show win0_4.index t (0 : Fin 2) * 1 + 1 * 0 = 0; omega
      | ⟨1, _⟩ => show win0_4.index t (1 : Fin 2) * 400 + 1 * g.val = g.val; omega
    rw [he]
    exact bias_bwd_at m c g

/-! ## The array after the run -/

/-- An index of the result is in point `t`'s block iff each coordinate is in the block's range on its axis. -/
theorem mem_block (t : Fin cfg0.N) (i : S131072x200.Idx) :
    i ∈ ((cfg0.win 5).blk t).view.set ↔ ∀ a : Fin 2, win0_5.index t a * S2048x200.size a ≤ (i a).val ∧ (i a).val < win0_5.index t a * S2048x200.size a + S2048x200.size a := by
  show i ∈ ((View.whole main_v8).slice (win0_5.rect t)).set ↔ _
  rw [View.set_slice_whole, Rect.mem_set_unit]
  exact Iff.rfl

/-- Every block of rows is some point's. -/
theorem block_onto : ∀ b : Fin 64, ∃ t : Fin cfg0.N, win0_5.index t = ![b.val, 0] :=
  (by decide +kernel : ∀ b : Fin 64, ∃ t : Fin grid0.N, win0_5.index t = ![b.val, 0])

/-- Row `r` of the result is in the block of point `r / 2048`, which writes back. -/
theorem covered (i : S131072x200.Idx) :
    ∃ t : Fin cfg0.N, (cfg0.win 5).flush t = true ∧ i ∈ ((cfg0.win 5).blk t).view.set := by
  have hi0 : (i 0).val < 131072 := (i 0).isLt
  have hi1 : (i 1).val < 200 := (i 1).isLt
  obtain ⟨t, ht⟩ := block_onto ⟨(i 0).val / 2048, by omega⟩
  have q0 : win0_5.index t (0 : Fin 2) = (i 0).val / 2048 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 200 ≤ (i 1).val ∧ (i 1).val < win0_5.index t (1 : Fin 2) * 200 + 200; omega

/-- THE RESULT ARRAY after the run is the step. -/
theorem final (c : Dev nD) : (dats m 0 c).arrAt 5 cfg0.N = stepOf m c :=
  (dats m 0 c).arrAt_eq_of_cover 5 (stepOf m c) (fun t _ => flushed_eq m c t) covered

/-- The run of the idealized kernel: it terminates with the result at the step of the arguments and the arguments
    unchanged. -/
theorem run : θ_run defs (onTc (τ := τ) (main (F := Ideal))) ⟨m, fun _ => 0, ρ⟩ fun r => ∀ c : Dev nD,
      r.2.mem ((c : Thread nD τ).loc main_v8) = stepOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.StepValue

end
-- ==== Proof.lean ====
/-
  A bidirectional LSTM applied to every input row as a length-one sequence from the zero state: kernel and
  reference compute the same array over the extended reals.

  With h₀ = c₀ = 0 each direction is one cell step without its recurrent term and forget gate: the
  pre-activations x·wᵀ + b_ih + b_hh, then σ(o) · tanh(σ(i) · tanh(g)) on the input, candidate and output gate
  columns, the two directions joined along the columns (`ZeroStateLstm.both`). The reference computes exactly
  this, operation by operation, its σ spelled 1 / (1 + e^(-z)) (`ReferenceIdeal.StepValue.result_eq`). The kernel
  walks the rows in 64 blocks of 2048; per block it multiplies by the weights transposed beforehand, adds the two
  biases summed beforehand, and applies the same gates (`KernelIdeal.StepValue.run`). The two differ only in the
  order the biases are added, x·wᵀ + (b_ih + b_hh) against (x·wᵀ + b_ih) + b_hh, which the associativity of the
  sum on the extended reals joins, and in changes of float format, which are the identity there; so no use is made
  of the inputs being finite.

  The three frames: the kernel's two are the generated frame runs; the reference's is its run with the result
  dropped. The idealization rewrote no operation, so there is nothing to preserve.
-/
import proofs.«143538_j54924041781763_1_alg».proof.Defs
import proofs.«143538_j54924041781763_1_alg».proof.Proof.Gen.Kernel
import proofs.«143538_j54924041781763_1_alg».proof.Proof.Gen.Kernel.Frame
import proofs.«143538_j54924041781763_1_alg».proof.Proof.Gen.KernelIdeal
import proofs.«143538_j54924041781763_1_alg».proof.Proof.Gen.KernelIdeal.Frame
import proofs.«143538_j54924041781763_1_alg».proof.Proof.Gen.KernelIdeal.Value
import proofs.«143538_j54924041781763_1_alg».proof.Proof.Gen.ReferenceIdeal
import proofs.«143538_j54924041781763_1_alg».proof.Proof.Gen.ReferenceIdeal.Run
import proofs.«143538_j54924041781763_1_alg».proof.Proof.Gen.ReferenceIdeal.Read
import proofs.«143538_j54924041781763_1_alg».proof.Proof.Gen.Pre_finite_inputs
import proofs.«143538_j54924041781763_1_alg».proof.Proof.ZeroStateLstm
import proofs.«143538_j54924041781763_1_alg».proof.Proof.ReferenceStep
import proofs.«143538_j54924041781763_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result at the zero-state bidirectional
    LSTM step of those arguments: the kernel by its run read block by block, the reference by its run read
    operation by operation. -/
theorem algebraic : Cert.algebraic_KernelIdeal_ReferenceIdeal := by
  intro m ρ m' ρ' _ hagree
  refine ⟨fun c => Cert.KernelIdeal.StepValue.stepOf m c, Cert.KernelIdeal.StepValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, a3, a4, a5, -, a7, a8⟩ := hagree c
  rw [Cert.ReferenceIdeal.Read.val_main_v56_eq, Cert.ReferenceIdeal.StepValue.result_eq, a0, a1, a3, a4, a5, a7, a8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
